-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x16 : Shape := ⟨2, ![50000, 16]⟩
abbrev S1600000x8 : Shape := ⟨2, ![1600000, 8]⟩
abbrev S40x64 : Shape := ⟨2, ![40, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S2x1600000 : Shape := ⟨2, ![2, 1600000]⟩
abbrev S50000 : Shape := ⟨1, ![50000]⟩
abbrev S_ : Shape := ⟨0, ![]⟩

class Facts : Prop where
  bcast_S_S50000x16 : S_.BroadcastsInDim S50000x16 (![] : Fin 0 → Fin S50000x16.rank)
  reducesTo_S50000x16_S_d0_1 : S50000x16.ReducesTo [0, 1] S_
  h_S_ : 0 < S_.numel
  bcast_S_S1600000x8 : S_.BroadcastsInDim S1600000x8 (![] : Fin 0 → Fin S1600000x8.rank)
  reducesTo_S1600000x8_S_d0_1 : S1600000x8.ReducesTo [0, 1] S_
  bcast_S_S40x64 : S_.BroadcastsInDim S40x64 (![] : Fin 0 → Fin S40x64.rank)
  reducesTo_S40x64_S_d0_1 : S40x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg4 : FVec F S64x64 .f32) (main_arg5 : FVec F S64 .f32) (main_arg6 : FVec F S64x1 .f32) (main_arg7 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x1 .f32 := Host.absf main_arg6
  let main_cst_10 : FVec F S_ .f32 := constant S_ .f32 0x7F800000#32
  let main_v30 : FVec F S64x1 .f32 := broadcastInDim S64x1 ![] bcast_S_S64x1 main_cst_10
  let main_v31 : IVec S64x1 1 := cmpf .olt main_v29 main_v30
  let main_c_11 : IVec S_ 1 := constantI S_ 1 1#1
  let main_v32 : IVec S_ 1 := (fun x v => Host.reduce IntOp.andi x v reducesTo_S64x1_S_d0_1 h_S_) main_v31 main_c_11
  let main_v33 : IVec S_ 1 := andi main_v28 main_v32
  fn_part2 (F := F) main_arg7 main_v33

def fn {F : FTy → Type} [FloatOps F] (main_arg0 : FVec F S50000x16 .f32) (main_arg1 : FVec F S1600000x8 .f32) (main_arg2 : FVec F S40x64 .f32) (main_arg3 : FVec F S64 .f32) (main_arg4 : FVec F S64x64 .f32) (main_arg5 : FVec F S64 .f32) (main_arg6 : FVec F S64x1 .f32) (main_arg7 : FVec F S1 .f32) (main_arg8 : IVec S2x1600000 32) (main_arg9 : IVec S50000 32) : IVec S_ 1 :=
  let main_v0 : FVec F S50000x16 .f32 := Host.absf main_arg0
  let main_cst : FVec F S_ .f32 := constant S_ .f32 0x7F800000#32
  let main_v1 : FVec F S50000x16 .f32 := broadcastInDim S50000x16 ![] bcast_S_S50000x16 main_cst
  let main_v2 : IVec S50000x16 1 := cmpf .olt main_v0 main_v1
  let main_c : IVec S_ 1 := constantI S_ 1 1#1
  let main_v3 : IVec S_ 1 := (fun x v => Host.reduce IntOp.andi x v reducesTo_S50000x16_S_d0_1 h_S_) main_v2 main_c
  let main_v4 : FVec F S1600000x8 .f32 := Host.absf main_arg1
  let main_cst_0 : FVec F S_ .f32 := constant S_ .f32 0x7F800000#32
  let main_v5 : FVec F S1600000x8 .f32 := broadcastInDim S1600000x8 ![] bcast_S_S1600000x8 main_cst_0
  let main_v6 : IVec S1600000x8 1 := cmpf .olt main_v4 main_v5
  let main_c_1 : IVec S_ 1 := constantI S_ 1 1#1
  let main_v7 : IVec S_ 1 := (fun x v => Host.reduce IntOp.andi x v reducesTo_S1600000x8_S_d0_1 h_S_) main_v6 main_c_1
  let main_v8 : IVec S_ 1 := andi main_v3 main_v7
  let main_v9 : FVec F S40x64 .f32 := Host.absf main_arg2
  let main_cst_2 : FVec F S_ .f32 := constant S_ .f32 0x7F800000#32
  let main_v10 : FVec F S40x64 .f32 := broadcastInDim S40x64 ![] bcast_S_S40x64 main_cst_2
  let main_v11 : IVec S40x64 1 := cmpf .olt main_v9 main_v10
  let main_c_3 : IVec S_ 1 := constantI S_ 1 1#1
  let main_v12 : IVec S_ 1 := (fun x v => Host.reduce IntOp.andi x v reducesTo_S40x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_v13 main_v16
-- ==== Kernel.lean ====
abbrev S50000x16 : Shape := ⟨2, ![50000, 16]⟩
abbrev S1600000x8 : Shape := ⟨2, ![1600000, 8]⟩
abbrev S40x64 : Shape := ⟨2, ![40, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S2x1600000 : Shape := ⟨2, ![2, 1600000]⟩
abbrev S50000 : Shape := ⟨1, ![50000]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x16 : Shape := ⟨2, ![1600000, 16]⟩
abbrev S12800x16 : Shape := ⟨2, ![12800, 16]⟩
abbrev S12800x8 : Shape := ⟨2, ![12800, 8]⟩
abbrev S12800x1 : Shape := ⟨2, ![12800, 1]⟩
abbrev S12800x40 : Shape := ⟨2, ![12800, 40]⟩
abbrev S12800x64 : Shape := ⟨2, ![12800, 64]⟩
abbrev S1x64 : Shape := ⟨2, ![1, 64]⟩
abbrev S1x1 : Shape := ⟨2, ![1, 1]⟩
abbrev S50000x1 : Shape := ⟨2, ![50000, 1]⟩
abbrev S500x1 : Shape := ⟨2, ![500, 1]⟩
abbrev S500 : Shape := ⟨1, ![500]⟩

abbrev nBuf : Space → Nat
  | .hbm => 45
  | .vmem => 14
  | .smem => 0
  | _ => 0

abbrev bufTy : (tb : Table) → Fin (tcTables nBuf tb) → BufTy
  | .hbm, ⟨0, _⟩ => ⟨S50000x16, .f32⟩
  | .hbm, ⟨1, _⟩ => ⟨S1600000x8, .f32⟩
  | .hbm, ⟨2, _⟩ => ⟨S40x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x1, .f32⟩
  | .hbm, ⟨7, _⟩ => ⟨S1, .f32⟩
  | .hbm, ⟨8, _⟩ => ⟨S2x1600000, .i32⟩
  | .hbm, ⟨9, _⟩ => ⟨S50000, .i32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x16, .f32⟩
  | .hbm, ⟨23, _⟩ => ⟨S_, .i32⟩
  | .hbm, ⟨24, _⟩ => ⟨S1600000, .i32⟩
  | .hbm, ⟨25, _⟩ => ⟨S1600000, .i1⟩
  | .hbm, ⟨26, _⟩ => ⟨S_, .i32⟩
  | .hbm, ⟨27, _⟩ => ⟨S1600000, .i32⟩
  | .hbm, ⟨28, _⟩ => ⟨S1600000, .i32⟩
  | .hbm, ⟨29, _⟩ => ⟨S1600000, .i32⟩
  | .hbm, ⟨30, _⟩ => ⟨S1600000x1, .i32⟩
  | .hbm, ⟨31, _⟩ => ⟨S1600000x16, .f32⟩
  | .hbm, ⟨32, _⟩ => ⟨S1600000x1, .f32⟩
  | .hbm, ⟨33, _⟩ => ⟨S_, .f32⟩
  | .hbm, ⟨34, _⟩ => ⟨S50000x1, .f32⟩
  | .hbm, ⟨35, _⟩ => ⟨S1600000x1, .i32⟩
  | .hbm, ⟨36, _⟩ => ⟨S50000x1, .f32⟩
  | .hbm, ⟨37, _⟩ => ⟨S_, .f32⟩
  | .hbm, ⟨38, _⟩ => ⟨S500x1, .f32⟩
  | .hbm, ⟨39, _⟩ => ⟨S50000x1, .i32⟩
  | .hbm, ⟨40, _⟩ => ⟨S500x1, .f32⟩
  | .hbm, ⟨41, _⟩ => ⟨S500, .f32⟩
  | .hbm, ⟨42, _⟩ => ⟨S_, .f32⟩
  | .hbm, ⟨43, _⟩ => ⟨S500, .f32⟩
  | .hbm, ⟨44, _⟩ => ⟨S500, .f32⟩
  | .local _ .vmem, ⟨0, _⟩ => ⟨S12800x16, .f32⟩
  | .local _ .vmem, ⟨1, _⟩ => ⟨S12800x16, .f32⟩
  | .local _ .vmem, ⟨2, _⟩ => ⟨S12800x16, .f32⟩
  | .local _ .vmem, ⟨3, _⟩ => ⟨S12800x16, .f32⟩
  | .local _ .vmem, ⟨4, _⟩ => ⟨S12800x8, .f32⟩
  | .local _ .vmem, ⟨5, _⟩ => ⟨S12800x8, .f32⟩
  | .local _ .vmem, ⟨6, _⟩ => ⟨S40x64, .f32⟩
  | .local _ .vmem, ⟨7, _⟩ => ⟨S64, .f32⟩
  | .local _ .vmem, ⟨8, _⟩ => ⟨S64x64, .f32⟩
  | .local _ .vmem, ⟨9, _⟩ => ⟨S64, .f32⟩
  | .local _ .vmem, ⟨10, _⟩ => ⟨S64x1, .f32⟩
  | .local _ .vmem, ⟨11, _⟩ => ⟨S1, .f32⟩
  | .local _ .vmem, ⟨12, _⟩ => ⟨S12800x1, .f32⟩
  | .local _ .vmem, ⟨13, _⟩ => ⟨S12800x1, .f32⟩
  | _, _ => ⟨S50000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_1 : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_4 : Ref sig .tc := ⟨.hbm, 42, rfl⟩
abbrev main_v26 : Ref sig .tc := ⟨.hbm, 43, rfl⟩
abbrev main_v27 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S12800x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S12800x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S12800x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S40x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S12800x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  inb_S12800x16_S12800x16_0_0 : ∀ a, (![0, 0] : Fin 2 → Nat) a + S12800x16.size a ≤ S12800x16.size a
  h_S12800x16 : 0 < S12800x16.numel
  shapeCasts_S12800x16_S12800x16 : S12800x16.ShapeCasts S12800x16
  inb_S12800x8_S12800x8_0_0 : ∀ a, (![0, 0] : Fin 2 → Nat) a + S12800x8.size a ≤ S12800x8.size a
  h_S12800x8 : 0 < S12800x8.numel
  concatenates_S12800x16_S12800x16_S12800x8_S12800x40_d1 : Shape.Concatenates [S12800x16, S12800x16, S12800x8] S12800x40 1
  bitsLt_bf16_f32 : FTy.bits .bf16 < FTy.bits .f32
  inb_S40x64_S40x64_0_0 : ∀ a, (![0, 0] : Fin 2 → Nat) a + S40x64.size a ≤ S40x64.size a
  h_S40x64 : 0 < S40x64.numel
  inb_S64_S64_0 : ∀ a, (![0] : Fin 1 → Nat) a + S64.size a ≤ S64.size a
  h_S64 : 0 < S64.numel
  shapeCasts_S64_S1x64 : S64.ShapeCasts S1x64
  broadcasts_S1x64_S12800x64 : S1x64.Broadcasts S12800x64
  inb_S64x64_S64x64_0_0 : ∀ a, (![0, 0] : Fin 2 → Nat) a + S64x64.size a ≤ S64x64.size a
  h_S64x64 : 0 < S64x64.numel
  inb_S64x1_S64x1_0_0 : ∀ a, (![0, 0] : Fin 2 → Nat) a + S64x1.size a ≤ S64x1.size a
  h_S64x1 : 0 < S64x1.numel
  inb_S1_S1_0 : ∀ a, (![0] : Fin 1 → Nat) a + S1.size a ≤ S1.size a
  h_S1 : 0 < S1.numel
  shapeCasts_S1_S1x1 : S1.ShapeCasts S1x1
  broadcasts_S1x1_S12800x1 : S1x1.Broadcasts S12800x1
  inb_S12800x1_S12800x1_0_0 : ∀ a, (![0, 0] : Fin 2 → Nat) a + S12800x1.size a ≤ S12800x1.size a
  h_S12800x1 : 0 < S12800x1.numel
  bcast_S_S50000x1 : S_.BroadcastsInDim S50000x1 (![] : Fin 0 → Fin S50000x1.rank)
  bcast_S_S500x1 : S_.BroadcastsInDim S500x1 (![] : Fin 0 → Fin S500x1.rank)
  bcast_S50000_S50000x1_0 : S50000.BroadcastsInDim S50000x1 (![0] : Fin 1 → Fin S50000x1.rank)
  shapeCasts_S500x1_S500 : S500x1.ShapeCasts S500
  bcast_S_S500 : S_.BroadcastsInDim S500 (![] : Fin 0 → Fin S500.rank)
  gather_S50000x16_S1600000x1_S1600000x16_1_0_n_n_0_1_116_wf : GatherDims.WF S50000x16 S1600000x1 S1600000x16 [1] [0] [] [0] [] 1 ![1, 16]
  dot_S12800x40_S40x64_S12800x64_1_0_0_1_n_n_wf : DotDims.WF S12800x40 S40x64 S12800x64 [1] [0] [0] [1] [] []
  dot_S12800x64_S64x64_S12800x64_1_0_0_1_n_n_wf : DotDims.WF S12800x64 S64x64 S12800x64 [1] [0] [0] [1] [] []
  dot_S12800x64_S64x1_S12800x1_1_0_0_1_n_n_wf : DotDims.WF S12800x64 S64x1 S12800x1 [1] [0] [0] [1] [] []
  scatter_S50000x1_S1600000x1_S1600000x1_1_0_0_1_wf : ScatterDims.WF S50000x1 S1600000x1 S1600000x1 [1] [0] [0] 1
  scatter_S500x1_S50000x1_S50000x1_1_0_0_1_wf : ScatterDims.WF S500x1 S50000x1 S50000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S12800x16.size a ≤ S1600000x16.size a
  hwx0_0 : ∀ i : grid0.Coords, EltTy.bits .f32 = 32 ∨ (Rect.block (s := S1600000x16) S12800x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S12800x16.size a ≤ S1600000x16.size a
  hwx0_1 : ∀ i : grid0.Coords, EltTy.bits .f32 = 32 ∨ (Rect.block (s := S1600000x16) S12800x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S12800x8.size a ≤ S1600000x8.size a
  hwx0_2 : ∀ i : grid0.Coords, EltTy.bits .f32 = 32 ∨ (Rect.block (s := S1600000x8) S12800x8.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S40x64.size a ≤ S40x64.size a
  hwx0_3 : ∀ i : grid0.Coords, EltTy.bits .f32 = 32 ∨ (Rect.block (s := S40x64) S40x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64.size a ≤ S64.size a
  hwx0_6 : ∀ i : grid0.Coords, EltTy.bits .f32 = 32 ∨ (Rect.block (s := S64) S64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x1.size a ≤ S64x1.size a
  hwx0_7 : ∀ i : grid0.Coords, EltTy.bits .f32 = 32 ∨ (Rect.block (s := S64x1) S64x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1.size a ≤ S1.size a
  hwx0_8 : ∀ i : grid0.Coords, EltTy.bits .f32 = 32 ∨ (Rect.block (s := S1) S1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S12800x1.size a ≤ S1600000x1.size a
  hwx0_9 : ∀ i : grid0.Coords, EltTy.bits .f32 = 32 ∨ (Rect.block (s := S1600000x1) S12800x1.size (cc0_transform_9 i) (hinb0_9 i)).WholeWords (EltTy.packing .f32)

variable [Facts₀]

def gather_S50000x16_S1600000x1_S1600000x16_1_0_n_n_0_1_116 : GatherDims S50000x16 S1600000x1 S1600000x16 where
  offsetDims := [1]
  collapsedSliceDims := [0]
  operandBatchingDims := []
  startIndicesBatchingDims := []
  startIndexMap := [0]
  indexVectorDim := 1
  sliceSizes := ![1, 16]
  wf := gather_S50000x16_S1600000x1_S1600000x16_1_0_n_n_0_1_116_wf
def dot_S12800x40_S40x64_S12800x64_1_0_0_1_n_n : DotDims S12800x40 S40x64 S12800x64 where
  lhsContracting := [1]
  rhsContracting := [0]
  lhsNonContracting := [0]
  rhsNonContracting := [1]
  lhsBatch := []
  rhsBatch := []
  wf := dot_S12800x40_S40x64_S12800x64_1_0_0_1_n_n_wf
def dot_S12800x64_S64x64_S12800x64_1_0_0_1_n_n : DotDims S12800x64 S64x64 S12800x64 where
  lhsContracting := [1]
  rhsContracting := [0]
  lhsNonContracting := [0]
  rhsNonContracting := [1]
  lhsBatch := []
  rhsBatch := []
  wf := dot_S12800x64_S64x64_S12800x64_1_0_0_1_n_n_wf
def dot_S12800x64_S64x1_S12800x1_1_0_0_1_n_n : DotDims S12800x64 S64x1 S12800x1 where
  lhsContracting := [1]
  rhsContracting := [0]
  lhsNonContracting := [0]
  rhsNonContracting := [1]
  lhsBatch := []
  rhsBatch := []
  wf := dot_S12800x64_S64x1_S12800x1_1_0_0_1_n_n_wf
def scatter_S50000x1_S1600000x1_S1600000x1_1_0_0_1 : ScatterDims S50000x1 S1600000x1 S1600000x1 where
  updateWindowDims := [1]
  insertedWindowDims := [0]
  scatterDimsToOperandDims := [0]
  indexVectorDim := 1
  wf := scatter_S50000x1_S1600000x1_S1600000x1_1_0_0_1_wf
def scatter_S500x1_S50000x1_S50000x1_1_0_0_1 : ScatterDims S500x1 S50000x1 S50000x1 where
  updateWindowDims := [1]
  insertedWindowDims := [0]
  scatterDimsToOperandDims := [0]
  indexVectorDim := 1
  wf := scatter_S500x1_S50000x1_S50000x1_1_0_0_1_wf

abbrev win0_0 : Pipeline.Window sig grid0 :=
  Pipeline.Window.ofSpec (Memref.whole main_v10) S12800x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S12800x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S12800x8.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S40x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S64x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg7) S1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v18) S12800x1.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S50000x16 : Shape := ⟨2, ![50000, 16]⟩
abbrev S1600000x8 : Shape := ⟨2, ![1600000, 8]⟩
abbrev S40x64 : Shape := ⟨2, ![40, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S2x1600000 : Shape := ⟨2, ![2, 1600000]⟩
abbrev S50000 : Shape := ⟨1, ![50000]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x16 : Shape := ⟨2, ![1600000, 16]⟩
abbrev S1600000x40 : Shape := ⟨2, ![1600000, 40]⟩
abbrev S1600000x64 : Shape := ⟨2, ![1600000, 64]⟩
abbrev S1x64 : Shape := ⟨2, ![1, 64]⟩
abbrev S1x1 : Shape := ⟨2, ![1, 1]⟩
abbrev S50000x1 : Shape := ⟨2, ![50000, 1]⟩
abbrev S500x1 : Shape := ⟨2, ![500, 1]⟩
abbrev S500 : Shape := ⟨1, ![500]⟩

abbrev nBuf : Space → Nat
  | .hbm => 63
  | .vmem => 0
  | .smem => 0
  | _ => 0

abbrev bufTy : (tb : Table) → Fin (tcTables nBuf tb) → BufTy
  | .hbm, ⟨0, _⟩ => ⟨S50000x16, .f32⟩
  | .hbm, ⟨1, _⟩ => ⟨S1600000x8, .f32⟩
  | .hbm, ⟨2, _⟩ => ⟨S40x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x1, .f32⟩
  | .hbm, ⟨7, _⟩ => ⟨S1, .f32⟩
  | .hbm, ⟨8, _⟩ => ⟨S2x1600000, .i32⟩
  | .hbm, ⟨9, _⟩ => ⟨S50000, .i32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x16, .f32⟩
  | .hbm, ⟨23, _⟩ => ⟨S_, .i32⟩
  | .hbm, ⟨24, _⟩ => ⟨S1600000, .i32⟩
  | .hbm, ⟨25, _⟩ => ⟨S1600000, .i1⟩
  | .hbm, ⟨26, _⟩ => ⟨S_, .i32⟩
  | .hbm, ⟨27, _⟩ => ⟨S1600000, .i32⟩
  | .hbm, ⟨28, _⟩ => ⟨S1600000, .i32⟩
  | .hbm, ⟨29, _⟩ => ⟨S1600000, .i32⟩
  | .hbm, ⟨30, _⟩ => ⟨S1600000x1, .i32⟩
  | .hbm, ⟨31, _⟩ => ⟨S1600000x16, .f32⟩
  | .hbm, ⟨32, _⟩ => ⟨S1600000x40, .f32⟩
  | .hbm, ⟨33, _⟩ => ⟨S1600000x64, .f32⟩
  | .hbm, ⟨34, _⟩ => ⟨S1x64, .f32⟩
  | .hbm, ⟨35, _⟩ => ⟨S1600000x64, .f32⟩
  | .hbm, ⟨36, _⟩ => ⟨S1600000x64, .f32⟩
  | .hbm, ⟨37, _⟩ => ⟨S_, .f32⟩
  | .hbm, ⟨38, _⟩ => ⟨S1600000x64, .f32⟩
  | .hbm, ⟨39, _⟩ => ⟨S1600000x64, .f32⟩
  | .hbm, ⟨40, _⟩ => ⟨S1600000x64, .f32⟩
  | .hbm, ⟨41, _⟩ => ⟨S1x64, .f32⟩
  | .hbm, ⟨42, _⟩ => ⟨S1600000x64, .f32⟩
  | .hbm, ⟨43, _⟩ => ⟨S1600000x64, .f32⟩
  | .hbm, ⟨44, _⟩ => ⟨S_, .f32⟩
  | .hbm, ⟨45, _⟩ => ⟨S1600000x64, .f32⟩
  | .hbm, ⟨46, _⟩ => ⟨S1600000x64, .f32⟩
  | .hbm, ⟨47, _⟩ => ⟨S1600000x1, .f32⟩
  | .hbm, ⟨48, _⟩ => ⟨S1x1, .f32⟩
  | .hbm, ⟨49, _⟩ => ⟨S1600000x1, .f32⟩
  | .hbm, ⟨50, _⟩ => ⟨S1600000x1, .f32⟩
  | .hbm, ⟨51, _⟩ => ⟨S_, .f32⟩
  | .hbm, ⟨52, _⟩ => ⟨S50000x1, .f32⟩
  | .hbm, ⟨53, _⟩ => ⟨S1600000x1, .i32⟩
  | .hbm, ⟨54, _⟩ => ⟨S50000x1, .f32⟩
  | .hbm, ⟨55, _⟩ => ⟨S_, .f32⟩
  | .hbm, ⟨56, _⟩ => ⟨S500x1, .f32⟩
  | .hbm, ⟨57, _⟩ => ⟨S50000x1, .i32⟩
  | .hbm, ⟨58, _⟩ => ⟨S500x1, .f32⟩
  | .hbm, ⟨59, _⟩ => ⟨S500, .f32⟩
  | .hbm, ⟨60, _⟩ => ⟨S_, .f32⟩
  | .hbm, ⟨61, _⟩ => ⟨S500, .f32⟩
  | .hbm, ⟨62, _⟩ => ⟨S500, .f32⟩
  | _, _ => ⟨S50000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_1 : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_call0_cst : Ref sig .tc := ⟨.hbm, 37, rfl⟩
abbrev main_call0_v0 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_call1_cst : Ref sig .tc := ⟨.hbm, 44, rfl⟩
abbrev main_call1_v0 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_3 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_4 : Ref sig .tc := ⟨.hbm, 60, rfl⟩
abbrev main_v40 : Ref sig .tc := ⟨.hbm, 61, rfl⟩
abbrev main_v41 : Ref sig .tc := ⟨.hbm, 62, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x16_S1600000x16_S1600000x8_S1600000x40_d1 : Shape.Concatenates [S1600000x16, S1600000x16, S1600000x8] S1600000x40 1
  bcast_S64_S1x64_1 : S64.BroadcastsInDim S1x64 (![1] : Fin 1 → Fin S1x64.rank)
  bcast_S1x64_S1600000x64_0_1 : S1x64.BroadcastsInDim S1600000x64 (![0, 1] : Fin 2 → Fin S1600000x64.rank)
  bcast_S_S1600000x64 : S_.BroadcastsInDim S1600000x64 (![] : Fin 0 → Fin S1600000x64.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  bcast_S_S50000x1 : S_.BroadcastsInDim S50000x1 (![] : Fin 0 → Fin S50000x1.rank)
  bcast_S_S500x1 : S_.BroadcastsInDim S500x1 (![] : Fin 0 → Fin S500x1.rank)
  bcast_S50000_S50000x1_0 : S50000.BroadcastsInDim S50000x1 (![0] : Fin 1 → Fin S50000x1.rank)
  shapeCasts_S500x1_S500 : S500x1.ShapeCasts S500
  bcast_S_S500 : S_.BroadcastsInDim S500 (![] : Fin 0 → Fin S500.rank)
  gather_S50000x16_S1600000x1_S1600000x16_1_0_n_n_0_1_116_wf : GatherDims.WF S50000x16 S1600000x1 S1600000x16 [1] [0] [] [0] [] 1 ![1, 16]
  dot_S1600000x40_S40x64_S1600000x64_1_0_0_1_n_n_wf : DotDims.WF S1600000x40 S40x64 S1600000x64 [1] [0] [0] [1] [] []
  dot_S1600000x64_S64x64_S1600000x64_1_0_0_1_n_n_wf : DotDims.WF S1600000x64 S64x64 S1600000x64 [1] [0] [0] [1] [] []
  dot_S1600000x64_S64x1_S1600000x1_1_0_0_1_n_n_wf : DotDims.WF S1600000x64 S64x1 S1600000x1 [1] [0] [0] [1] [] []
  scatter_S50000x1_S1600000x1_S1600000x1_1_0_0_1_wf : ScatterDims.WF S50000x1 S1600000x1 S1600000x1 [1] [0] [0] 1
  scatter_S500x1_S50000x1_S50000x1_1_0_0_1_wf : ScatterDims.WF S500x1 S50000x1 S50000x1 [1] [0] [0] 1

variable [Facts₀]

def gather_S50000x16_S1600000x1_S1600000x16_1_0_n_n_0_1_116 : GatherDims S50000x16 S1600000x1 S1600000x16 where
  offsetDims := [1]
  collapsedSliceDims := [0]
  operandBatchingDims := []
  startIndicesBatchingDims := []
  startIndexMap := [0]
  indexVectorDim := 1
  sliceSizes := ![1, 16]
  wf := gather_S50000x16_S1600000x1_S1600000x16_1_0_n_n_0_1_116_wf
def dot_S1600000x40_S40x64_S1600000x64_1_0_0_1_n_n : DotDims S1600000x40 S40x64 S1600000x64 where
  lhsContracting := [1]
  rhsContracting := [0]
  lhsNonContracting := [0]
  rhsNonContracting := [1]
  lhsBatch := []
  rhsBatch := []
  wf := dot_S1600000x40_S40x64_S1600000x64_1_0_0_1_n_n_wf
def dot_S1600000x64_S64x64_S1600000x64_1_0_0_1_n_n : DotDims S1600000x64 S64x64 S1600000x64 where
  lhsContracting := [1]
  rhsContracting := [0]
  lhsNonContracting := [0]
  rhsNonContracting := [1]
  lhsBatch := []
  rhsBatch := []
  wf := dot_S1600000x64_S64x64_S1600000x64_1_0_0_1_n_n_wf
def dot_S1600000x64_S64x1_S1600000x1_1_0_0_1_n_n : DotDims S1600000x64 S64x1 S1600000x1 where
  lhsContracting := [1]
  rhsContracting := [0]
  lhsNonContracting := [0]
  rhsNonContracting := [1]
  lhsBatch := []
  rhsBatch := []
  wf := dot_S1600000x64_S64x1_S1600000x1_1_0_0_1_n_n_wf
def scatter_S50000x1_S1600000x1_S1600000x1_1_0_0_1 : ScatterDims S50000x1 S1600000x1 S1600000x1 where
  updateWindowDims := [1]
  insertedWindowDims := [0]
  scatterDimsToOperandDims := [0]
  indexVectorDim := 1
  wf := scatter_S50000x1_S1600000x1_S1600000x1_1_0_0_1_wf
def scatter_S500x1_S50000x1_S50000x1_1_0_0_1 : ScatterDims S500x1 S50000x1 S50000x1 where
  updateWindowDims := [1]
  insertedWindowDims := [0]
  scatterDimsToOperandDims := [0]
  indexVectorDim := 1
  wf := scatter_S500x1_S50000x1_S50000x1_1_0_0_1_wf

class Facts : Prop extends Facts₀ where

variable [Facts]
-- ==== Proof.LibDense.lean ====
/-
  One dense layer with ReLU, row by row.

  For a row `h` of `K` numbers, a `K × N` weight matrix `W` and a bias row `b`, the layer's entry `j` is
  `max (∑ k, h k · W k j + b j) 0` on the extended reals. A rows-by-columns matrix product (no batch axis, the left
  operand contracted on its columns, the right on its rows) read at (r, j) is `∑ k, lhs (r, k) · rhs (k, j)`, whether
  it is accumulated into a zero array or has no accumulator; adding a bias row laid along every row and taking the
  maximum with zero then gives the layer of row `r`. Nothing here depends on the number of rows, so a product over
  a tile of rows and a product over all rows read the same way.
-/
import Idealize.ShloMosaic.Lib.ValueIdx
import Idealize.ShloMosaic.Lib.ValueLayout
import Idealize.ShloMosaic.Lib.KernelVsHost
import Idealize.ShloMosaic.Lib.Pipeline.Value
import Idealize.ShloMosaic.PureOps.Ideal.Laws

noncomputable section

namespace Cert.LibDense

open Idealize.ShloMosaic Idealize.ShloMosaic.ValueIdx

/-- One dense layer followed by ReLU on one row: entry `j` is `max (∑ k, h k · W k j + b j) 0`. -/
def dense {K N : ℕ} (h : Fin K → EReal) (W : Fin K → Fin N → EReal) (b : Fin N → EReal) (j : Fin N) : EReal :=
  max (∑ k : Fin K, h k * W k j + b j) 0

/-- The layer depends on its input row only through the row's entries. -/
theorem dense_congr {K N : ℕ} {h h' : Fin K → EReal} (e : ∀ k, h k = h' k) (W : Fin K → Fin N → EReal) (b : Fin N → EReal)
    (j : Fin N) : dense h W b j = dense h' W b j := by
  rw [show h = h' from funext e]

section Plain

variable {M K N : ℕ}

/-- The rows-by-columns product's left operand index keeps the result's row. -/
theorem plain_lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from fun h => nomatch h),
    dif_pos (show (0 : Fin (⟨2, ![M, K]⟩ : Shape).rank) ∈ (DotDims.plain M K N).lhsNonContracting from List.mem_singleton.mpr rfl)]
  rfl

/-- Its column is the contraction position. -/
theorem plain_lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row is the contraction position. -/
theorem plain_rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- Its column is the result's column. -/
theorem plain_rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from fun h => nomatch h),
    dif_pos (show (1 : Fin (⟨2, ![K, N]⟩ : Shape).rank) ∈ (DotDims.plain M K N).rhsNonContracting from List.mem_singleton.mpr rfl)]
  rfl

/-- The sum over the product's contraction index, re-indexed by the contracted coordinate `k : Fin K`, with the
    operands read at (r, k) and (k, j). -/
theorem plain_sum {φ₁ φ₂ : FTy} (lhs : FVec Ideal ⟨2, ![M, K]⟩ φ₁) (rhs : FVec Ideal ⟨2, ![K, N]⟩ φ₂) (r : Fin M) (j : Fin N) :
    (∑ q : (DotDims.plain M K N).contr.Idx,
        lhs ((DotDims.plain M K N).lhsIdx (ix2 r j) q) * rhs ((DotDims.plain M K N).rhsIdx (ix2 r j) q))
      = ∑ k : Fin K, lhs (ix2 r k) * rhs (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r j) ((contrEquiv1 (DotDims.plain M K N) K rfl rfl).symm k) = ix2 r k :=
    funext fun a => Fin.ext (by
      match a with
      | ⟨0, _⟩ => exact plain_lhs_row _ _
      | ⟨1, _⟩ => exact (plain_lhs_col _ _).trans hk)
  have er : (DotDims.plain M K N).rhsIdx (ix2 r j) ((contrEquiv1 (DotDims.plain M K N) K rfl rfl).symm k) = ix2 k j :=
    funext fun a => Fin.ext (by
      match a with
      | ⟨0, _⟩ => exact (plain_rhs_row _ _).trans hk
      | ⟨1, _⟩ => exact plain_rhs_col _ _)
  rw [el, er]

/-- A rows-by-columns product accumulated into a zero array, read at (r, j). -/
theorem matmul_plain_zero_apply {φ₁ φ₂ : FTy} (prec : Option ContractPrecision) (lhs : FVec Ideal ⟨2, ![M, K]⟩ φ₁)
    (rhs : FVec Ideal ⟨2, ![K, N]⟩ φ₂) (r : Fin M) (j : Fin N) :
    FloatOps.matmul (DotDims.plain M K N) prec lhs rhs (constant ⟨2, ![M, N]⟩ .f32 0x00000000#32) (ix2 r j)
      = ∑ k : Fin K, lhs (ix2 r k) * rhs (ix2 k j) := by
  rw [Ideal.matmul_constant_zero_apply]
  exact plain_sum lhs rhs r j

/-- The host's rows-by-columns product, read at (r, j). -/
theorem dotGeneral_plain_apply {φ₁ φ₂ : FTy} (prec : Option ContractPrecision) (sched : HostSchedule)
    (lhs : FVec Ideal ⟨2, ![M, K]⟩ φ₁) (rhs : FVec Ideal ⟨2, ![K, N]⟩ φ₂) (r : Fin M) (j : Fin N) :
    FloatOps.dotGeneral (DotDims.plain M K N) prec sched lhs rhs (ix2 r j) = ∑ k : Fin K, lhs (ix2 r k) * rhs (ix2 k j) := by
  rw [Ideal.dotGeneral_apply]
  exact plain_sum lhs rhs r j

end Plain

/-! ## The layer as a kernel and as a host program spell it -/

section Layers

variable {M K N : ℕ} {φ₁ φ₂ : FTy}

/-- A kernel's layer — the product into a zero accumulator, a one-row bias laid along every row, the maximum with a
    splat zero — read at (r, j), given the input's row `r`. The product's dimension numbers may be any record that
    IS the rows-by-columns one. -/
theorem kernel_layer_apply (d : DotDims ⟨2, ![M, K]⟩ ⟨2, ![K, N]⟩ ⟨2, ![M, N]⟩) (hd : d = DotDims.plain M K N)
    (prec : Option ContractPrecision) (h : FVec Ideal ⟨2, ![M, K]⟩ φ₁) (W : FVec Ideal ⟨2, ![K, N]⟩ φ₂)
    (b : FVec Ideal ⟨2, ![1, N]⟩ .f32) (hb : (⟨2, ![1, N]⟩ : Shape).Broadcasts ⟨2, ![M, N]⟩) (r : Fin M) (j : Fin N)
    (row : Fin K → EReal) (hrow : ∀ k, h (ix2 r k) = row k) :
    maximumf (addf (matmul d prec h W (constant (F := Ideal) ⟨2, ![M, N]⟩ .f32 0x00000000#32)) (broadcastTo ⟨2, ![M, N]⟩ b hb))
        (broadcast ⟨2, ![M, N]⟩ (Scalar.ofBits (F := Ideal) .f32 0x00000000#32)) (ix2 r j)
      = dense row (fun k j => W (ix2 k j)) (fun j => b (ix2 (0 : Fin 1) j)) j := by
  subst hd
  show max (FloatOps.matmul (DotDims.plain M K N) prec h W (constant ⟨2, ![M, N]⟩ .f32 0x00000000#32) (ix2 r j)
      + broadcastTo ⟨2, ![M, N]⟩ b hb (ix2 r j)) (Ideal.ofBits .f32 0x00000000#32) = _
  rw [matmul_plain_zero_apply, broadcastTo_1b_ab_apply, Ideal.ofBits_zero_f32]
  unfold dense
  simp only [hrow]

/-- A host program's layer — the product, a bias vector laid along axis 1 of a one-row matrix and that row down the
    rows, the maximum with a broadcast zero — read at (e, j), given the input's row `e`. -/
theorem host_layer_apply (d : DotDims ⟨2, ![M, K]⟩ ⟨2, ![K, N]⟩ ⟨2, ![M, N]⟩) (hd : d = DotDims.plain M K N)
    (prec : Option ContractPrecision) (h : FVec Ideal ⟨2, ![M, K]⟩ φ₁) (W : FVec Ideal ⟨2, ![K, N]⟩ φ₂)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) (e : Fin M) (j : Fin N)
    (row : Fin K → EReal) (hrow : ∀ k, h (ix2 e k) = row k) :
    maximumf (addf (Host.dotGeneral d prec h W)
          (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32)) (ix2 e j)
      = dense row (fun k j => W (ix2 k j)) (fun j => b (ix1 j)) j := by
  subst hd
  have e2 := broadcastInDim_oneRow_apply h2 (broadcastInDim ⟨2, ![1, N]⟩ ![1] h1 b) e j
  have e1 := broadcastInDim_apply ![1] h1 b (ix2 (0 : Fin 1) j) (ix1 j) (fun a => by
    match a with
    | ⟨0, _⟩ =>
      show j.val = if N = 1 then 0 else j.val
      split
      · have := j.isLt; omega
      · rfl)
  have e0 := broadcastInDim_apply ![] h0 (constant (F := Ideal) ⟨0, ![]⟩ .f32 0x00000000#32) (ix2 e j) (fun a => a.elim0)
    (fun a => a.elim0)
  show max (FloatOps.dotGeneral (DotDims.plain M K N) prec .single h W (ix2 e j)
      + broadcastInDim ⟨2, ![M, N]⟩ ![0, 1] h2 (broadcastInDim ⟨2, ![1, N]⟩ ![1] h1 b) (ix2 e j))
      (broadcastInDim ⟨2, ![M, N]⟩ ![] h0 (constant (F := Ideal) ⟨0, ![]⟩ .f32 0x00000000#32) (ix2 e j)) = _
  rw [dotGeneral_plain_apply, e2, e1, e0]
  show max _ (Ideal.ofBits .f32 0x00000000#32) = _
  rw [Ideal.ofBits_zero_f32]
  unfold dense
  simp only [hrow]

end Layers

end Cert.LibDense

end
-- ==== Proof.EdgeSpec.lean ====
/-
  The message of one edge.

  An edge's feature row has 40 entries: the 16 features of its target node, the 16 of its source node, then the
  edge's own 8. The message is a three-layer perceptron of that row: two dense layers of width 64 with ReLU, then a
  dense layer to one number with no ReLU,
    msg = ∑ k, relu(relu(row · W1 + b1) · W2 + b2) k · W3 k 0 + b3 0
  on the extended reals. A concatenation of three arrays along their second axis, read at (r, k), is entry k of the
  row built from the three arrays' rows r; this holds for any number of rows.
-/
import proofs.«174551_j41240275976363_1_alg».proof.Proof.LibDense

noncomputable section

namespace Cert.EdgeSpec

open Idealize.ShloMosaic Idealize.ShloMosaic.ValueIdx Cert.LibDense

/-- The feature row of an edge: the target node's 16 features, the source node's 16, the edge's own 8. -/
def catRow (xd xs : Fin 16 → EReal) (ea : Fin 8 → EReal) (k : Fin 40) : EReal :=
  if h : k.val < 16 then xd ⟨k.val, h⟩
  else if h2 : k.val < 32 then xs ⟨k.val - 16, by omega⟩
  else ea ⟨k.val - 32, by omega⟩

/-- The message of an edge with feature row `row`: two dense layers with ReLU, then one dense layer to a single number. -/
def msgAt (row : Fin 40 → EReal) (W1 : Fin 40 → Fin 64 → EReal) (b1 : Fin 64 → EReal) (W2 : Fin 64 → Fin 64 → EReal)
    (b2 : Fin 64 → EReal) (W3 : Fin 64 → Fin 1 → EReal) (b3 : Fin 1 → EReal) : EReal :=
  ∑ k : Fin 64, dense (dense row W1 b1) W2 b2 k * W3 k 0 + b3 0

/-- Every edge's message, as one array over the edges: edge `e`'s row is cut from row `e` of the two gathered node
    arrays and of the edge-feature array. -/
def edgeMsg (xd xs : (⟨2, ![1600000, 16]⟩ : Shape).Idx → EReal) (ea : (⟨2, ![1600000, 8]⟩ : Shape).Idx → EReal)
    (W1 : (⟨2, ![40, 64]⟩ : Shape).Idx → EReal) (b1 : (⟨1, ![64]⟩ : Shape).Idx → EReal)
    (W2 : (⟨2, ![64, 64]⟩ : Shape).Idx → EReal) (b2 : (⟨1, ![64]⟩ : Shape).Idx → EReal)
    (W3 : (⟨2, ![64, 1]⟩ : Shape).Idx → EReal) (b3 : (⟨1, ![1]⟩ : Shape).Idx → EReal) :
    (⟨2, ![1600000, 1]⟩ : Shape).Idx → EReal := fun i =>
  msgAt (catRow (fun a => xd (ix2 (i 0) a)) (fun a => xs (ix2 (i 0) a)) (fun a => ea (ix2 (i 0) a)))
    (fun k j => W1 (ix2 k j)) (fun j => b1 (ix1 j)) (fun k j => W2 (ix2 k j)) (fun j => b2 (ix1 j))
    (fun k j => W3 (ix2 k j)) (fun j => b3 (ix1 j))

/-- Three arrays of 16, 16 and 8 columns joined along the columns, read at (r, k): entry `k` of the row made of the
    three arrays' rows `r`. -/
theorem concat3_apply {M : ℕ} (xd xs : (⟨2, ![M, 16]⟩ : Shape).Idx → EReal) (ea : (⟨2, ![M, 8]⟩ : Shape).Idx → EReal)
    (h : Shape.Concatenates (([⟨⟨2, ![M, 16]⟩, xd⟩, ⟨⟨2, ![M, 16]⟩, xs⟩, ⟨⟨2, ![M, 8]⟩, ea⟩] :
      List ((s : Shape) × (s.Idx → EReal))).map (·.1)) ⟨2, ![M, 40]⟩ 1) (r : Fin M) (k : Fin 40) :
    concatenate ⟨2, ![M, 40]⟩ 1 [⟨⟨2, ![M, 16]⟩, xd⟩, ⟨⟨2, ![M, 16]⟩, xs⟩, ⟨⟨2, ![M, 8]⟩, ea⟩] h (ix2 r k)
      = catRow (fun a => xd (ix2 r a)) (fun a => xs (ix2 r a)) (fun a => ea (ix2 r a)) k := by
  unfold catRow
  split
  · next h0 =>
    exact concatenate_apply_piece 1 _ h (ix2 r k) 0 (by show (0 : ℕ) < 3; omega) _ xd rfl rfl 0 rfl (ix2 r ⟨k.val, h0⟩)
      (fun b hb => by
        match b, hb with
        | ⟨0, _⟩, _ => rfl
        | ⟨1, _⟩, hb => exact absurd rfl hb)
      (by show 0 + k.val = k.val; omega)
  · next h0 =>
    split
    · next h1 =>
      exact concatenate_apply_piece 1 _ h (ix2 r k) 1 (by show (1 : ℕ) < 3; omega) _ xs rfl rfl 16 rfl (ix2 r ⟨k.val - 16, by omega⟩)
        (fun b hb => by
          match b, hb with
          | ⟨0, _⟩, _ => rfl
          | ⟨1, _⟩, hb => exact absurd rfl hb)
        (by show 16 + (k.val - 16) = k.val; omega)
    · next h1 =>
      have hk := k.isLt
      exact concatenate_apply_piece 1 _ h (ix2 r k) 2 (by show (2 : ℕ) < 3; omega) _ ea rfl rfl 32 rfl (ix2 r ⟨k.val - 32, by omega⟩)
        (fun b hb => by
          match b, hb with
          | ⟨0, _⟩, _ => rfl
          | ⟨1, _⟩, hb => exact absurd rfl hb)
        (by show 32 + (k.val - 32) = k.val; omega)

end Cert.EdgeSpec

end
-- ==== Proof.KernelTile.lean ====
/-
  The kernel body on one tile of 12800 edges.

  The body joins the tile's three input blocks along the columns, and runs the three dense layers on the joined
  rows: each layer is a rows-by-columns product into a zero accumulator (the narrowing of the operands to half
  precision is the identity on the extended reals), a bias row laid along every row, and, for the first two layers,
  the maximum with zero. So entry (r, 0) of what the body stores is the message of the edge whose feature row is
  row r of the joined blocks.
-/
import proofs.«174551_j41240275976363_1_alg».proof.Proof.Gen.KernelIdeal.Skeleton
import proofs.«174551_j41240275976363_1_alg».proof.Proof.EdgeSpec

noncomputable section

namespace Cert.KernelIdeal.Tile

open Idealize.ShloMosaic Idealize.ShloMosaic.ValueIdx Cert.KernelIdeal Cert.KernelIdeal.Gen Cert.LibDense Cert.EdgeSpec

/-- The three products of the body are rows-by-columns products. -/
theorem d1_plain : dot_S12800x40_S40x64_S12800x64_1_0_0_1_n_n = DotDims.plain 12800 40 64 := rfl
theorem d2_plain : dot_S12800x64_S64x64_S12800x64_1_0_0_1_n_n = DotDims.plain 12800 64 64 := rfl
theorem d3_plain : dot_S12800x64_S64x1_S12800x1_1_0_0_1_n_n = DotDims.plain 12800 64 1 := rfl

/-- The joined rows of the tile: the three blocks side by side. -/
def joined (x0 x1 : Vec Ideal S12800x16 .f32) (x2 : Vec Ideal S12800x8 .f32) : FVec Ideal S12800x40 .f32 :=
  concatenate S12800x40 1 [⟨S12800x16, shapeCast S12800x16 x0 shapeCasts_S12800x16_S12800x16⟩,
    ⟨S12800x16, shapeCast S12800x16 x1 shapeCasts_S12800x16_S12800x16⟩, ⟨S12800x8, x2⟩]
    concatenates_S12800x16_S12800x16_S12800x8_S12800x40_d1

/-- Row r of the joined tile is the feature row made of the three blocks' rows r. -/
theorem joined_apply (x0 x1 : Vec Ideal S12800x16 .f32) (x2 : Vec Ideal S12800x8 .f32) (r : Fin 12800) (k : Fin 40) :
    joined x0 x1 x2 (ix2 r k) = catRow (fun a => x0 (ix2 r a)) (fun a => x1 (ix2 r a)) (fun a => x2 (ix2 r a)) k := by
  unfold joined
  rw [shapeCast_self, shapeCast_self]
  exact concat3_apply (M := 12800) x0 x1 x2 _ r k

/-- A hidden layer of the body, read at (r, j): the dense layer with ReLU of the input's row r, over the weight
    matrix and the bias vector as loaded. -/
theorem hidden_apply {K N : ℕ} (d : DotDims ⟨2, ![12800, K]⟩ ⟨2, ![K, N]⟩ ⟨2, ![12800, N]⟩)
    (hd : d = DotDims.plain 12800 K N) (h : FVec Ideal ⟨2, ![12800, K]⟩ .f32) (W : FVec Ideal ⟨2, ![K, N]⟩ .f32)
    (b : FVec Ideal ⟨1, ![N]⟩ .f32) (hlt : FTy.bits .bf16 < FTy.bits .f32)
    (hc : (⟨1, ![N]⟩ : Shape).ShapeCasts ⟨2, ![1, N]⟩) (hb : (⟨2, ![1, N]⟩ : Shape).Broadcasts ⟨2, ![12800, N]⟩)
    (r : Fin 12800) (j : Fin N) (row : Fin K → EReal) (hrow : ∀ k, h (ix2 r k) = row k) :
    maximumf (addf (matmul d none (truncf .bf16 h hlt) (truncf .bf16 W hlt)
          (constant (F := Ideal) ⟨2, ![12800, N]⟩ .f32 0x00000000#32))
          (broadcastTo ⟨2, ![12800, N]⟩ (shapeCast ⟨2, ![1, N]⟩ b hc) hb))
        (broadcast ⟨2, ![12800, N]⟩ (Scalar.ofBits (F := Ideal) .f32 0x00000000#32)) (ix2 r j)
      = dense row (fun k j => W (ix2 k j)) (fun j => b (ix1 j)) j := by
  refine (kernel_layer_apply d hd none (truncf .bf16 h hlt) (truncf .bf16 W hlt) (shapeCast ⟨2, ![1, N]⟩ b hc) hb r j row
    hrow).trans ?_
  unfold dense
  simp only [truncf_apply, shapeCast_a_1a_apply]

/-- The last layer of the body, read at (r, 0): the input's row r against the one weight column, plus the bias. -/
theorem last_apply (d : DotDims ⟨2, ![12800, 64]⟩ ⟨2, ![64, 1]⟩ ⟨2, ![12800, 1]⟩)
    (hd : d = DotDims.plain 12800 64 1) (h : FVec Ideal ⟨2, ![12800, 64]⟩ .f32) (W : FVec Ideal ⟨2, ![64, 1]⟩ .f32)
    (b : FVec Ideal ⟨1, ![1]⟩ .f32) (hlt : FTy.bits .bf16 < FTy.bits .f32)
    (hc : (⟨1, ![1]⟩ : Shape).ShapeCasts ⟨2, ![1, 1]⟩) (hb : (⟨2, ![1, 1]⟩ : Shape).Broadcasts ⟨2, ![12800, 1]⟩)
    (r : Fin 12800) (row : Fin 64 → EReal) (hrow : ∀ k, h (ix2 r k) = row k) :
    addf (matmul d none (truncf .bf16 h hlt) (truncf .bf16 W hlt)
          (constant (F := Ideal) ⟨2, ![12800, 1]⟩ .f32 0x00000000#32))
        (broadcastTo ⟨2, ![12800, 1]⟩ (shapeCast ⟨2, ![1, 1]⟩ b hc) hb) (ix2 r (0 : Fin 1))
      = ∑ k : Fin 64, row k * W (ix2 k (0 : Fin 1)) + b (ix1 (0 : Fin 1)) := by
  subst hd
  show FloatOps.matmul (DotDims.plain 12800 64 1) none (truncf .bf16 h hlt) (truncf .bf16 W hlt)
      (constant ⟨2, ![12800, 1]⟩ .f32 0x00000000#32) (ix2 r 0)
      + broadcastTo ⟨2, ![12800, 1]⟩ (shapeCast ⟨2, ![1, 1]⟩ b hc) hb (ix2 r 0) = _
  rw [matmul_plain_zero_apply, broadcastTo_1b_ab_apply, shapeCast_a_1a_apply]
  simp only [truncf_apply, hrow]

/-- WHAT THE BODY STORES, at (r, 0): the message of the edge whose feature row is row r of the three input blocks. -/
theorem pay_apply (x0 x1 : Vec Ideal S12800x16 .f32) (x2 : Vec Ideal S12800x8 .f32) (x3 : Vec Ideal S40x64 .f32)
    (x4 : Vec Ideal S64 .f32) (x5 : Vec Ideal S64x64 .f32) (x6 : Vec Ideal S64 .f32) (x7 : Vec Ideal S64x1 .f32)
    (x8 : Vec Ideal S1 .f32) (r : Fin 12800) :
    k0_pay1 (F := Ideal) x0 x1 x2 x3 x4 x5 x6 x7 x8 (ix2 r (0 : Fin 1))
      = msgAt (catRow (fun a => x0 (ix2 r a)) (fun a => x1 (ix2 r a)) (fun a => x2 (ix2 r a)))
          (fun k j => x3 (ix2 k j)) (fun j => x4 (ix1 j)) (fun k j => x5 (ix2 k j)) (fun j => x6 (ix1 j))
          (fun k j => x7 (ix2 k j)) (fun j => x8 (ix1 j)) := by
  unfold k0_pay1 msgAt
  refine (last_apply _ d3_plain _ x7 x8 _ _ _ r _ (fun k => ?_)).trans rfl
  refine (hidden_apply _ d2_plain _ x5 x6 _ _ _ r k _ (fun k' => ?_)).trans rfl
  refine (hidden_apply _ d1_plain (joined x0 x1 x2) x3 x4 _ _ _ r k' _ (fun k'' => ?_)).trans rfl
  exact joined_apply x0 x1 x2 r k''

end Cert.KernelIdeal.Tile

end
-- ==== Proof.KernelOut.lean ====
/-
  The kernel's output array.

  The grid has 125 points; point t works on edges 12800 t … 12800 t + 12799. Its three tiled input blocks are those
  rows of the two gathered node arrays and of the edge-feature array, the weights and biases are whole arrays at
  every point, and the block it writes back holds, at row r, the message of edge 12800 t + r. The 125 blocks tile
  the 1600000 × 1 output array, so after the region the array holds every edge's message.
-/
import proofs.«174551_j41240275976363_1_alg».proof.Proof.Gen.KernelIdeal.Frame
import proofs.«174551_j41240275976363_1_alg».proof.Proof.KernelTile
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Out

open Cert.KernelIdeal Cert.KernelIdeal.Gen Cert.EdgeSpec Cert.KernelIdeal.Tile

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a; rfl

/-! ## The arrays the region finds, and the blocks of a point, by their literal types -/

abbrev arrXd (c : Dev nD) : S1600000x16.Idx → EReal := V m c main_v10
abbrev arrXs (c : Dev nD) : S1600000x16.Idx → EReal := V m c main_v17
abbrev arrEa (c : Dev nD) : S1600000x8.Idx → EReal := V m c main_arg1
abbrev arrW1 (c : Dev nD) : S40x64.Idx → EReal := V m c main_arg2
abbrev arrB1 (c : Dev nD) : S64.Idx → EReal := V m c main_arg3
abbrev arrW2 (c : Dev nD) : S64x64.Idx → EReal := V m c main_arg4
abbrev arrB2 (c : Dev nD) : S64.Idx → EReal := V m c main_arg5
abbrev arrW3 (c : Dev nD) : S64x1.Idx → EReal := V m c main_arg6
abbrev arrB3 (c : Dev nD) : S1.Idx → EReal := V m c main_arg7

/-- Every edge's message, from the arrays as the region finds them. -/
abbrev msgArr (c : Dev nD) : S1600000x1.Idx → EReal :=
  edgeMsg (arrXd m c) (arrXs m c) (arrEa m c) (arrW1 m c) (arrB1 m c) (arrW2 m c) (arrB2 m c) (arrW3 m c) (arrB3 m c)

abbrev blk0 (c : Dev nD) (t : Fin cfg0.N) : Vec Ideal S12800x16 .f32 := iblk m c 0 t
abbrev blk1 (c : Dev nD) (t : Fin cfg0.N) : Vec Ideal S12800x16 .f32 := iblk m c 1 t
abbrev blk2 (c : Dev nD) (t : Fin cfg0.N) : Vec Ideal S12800x8 .f32 := iblk m c 2 t
abbrev blk3 (c : Dev nD) (t : Fin cfg0.N) : Vec Ideal S40x64 .f32 := iblk m c 3 t
abbrev blk4 (c : Dev nD) (t : Fin cfg0.N) : Vec Ideal S64 .f32 := iblk m c 4 t
abbrev blk5 (c : Dev nD) (t : Fin cfg0.N) : Vec Ideal S64x64 .f32 := iblk m c 5 t
abbrev blk6 (c : Dev nD) (t : Fin cfg0.N) : Vec Ideal S64 .f32 := iblk m c 6 t
abbrev blk7 (c : Dev nD) (t : Fin cfg0.N) : Vec Ideal S64x1 .f32 := iblk m c 7 t
abbrev blk8 (c : Dev nD) (t : Fin cfg0.N) : Vec Ideal S1 .f32 := iblk m c 8 t

/-- The edge that row r of point t's tile is: 12800 t + r. -/
def edgeOf (t : Fin cfg0.N) (r : Fin 12800) : Fin 1600000 :=
  ⟨t.val * 12800 + r.val, by have h1 := t.isLt; have h2 := r.isLt; have h3 : cfg0.N = 125 := N_0; omega⟩

/-- The printed index maps over the grid: the tiled windows are at block t of their rows, the others at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0
    ∧ win0_9.index t (0 : Fin 2) = t.val ∧ win0_9.index t (1 : Fin 2) = 0 :=
  (by decide +kernel : ∀ t : Fin grid0.N, _)

/-! ## Each input block, read off its array -/

theorem blk0_apply (c : Dev nD) (t : Fin cfg0.N) (r : Fin 12800) (a : Fin 16) :
    blk0 m c t (ix2 r a) = arrXd m c (ix2 (edgeOf t r) a) := by
  obtain ⟨e0, e1, -⟩ := idx_facts t
  show V m c main_v10 (((cfg0.win 0).blk t).view.emb (ix2 r a)) = V m c main_v10 (ix2 (edgeOf t r) a)
  refine congrArg (V m c main_v10) (funext fun d => Fin.ext ?_)
  match d with
  | ⟨0, _⟩ => show win0_0.index t (0 : Fin 2) * 12800 + 1 * r.val = t.val * 12800 + r.val; omega
  | ⟨1, _⟩ => show win0_0.index t (1 : Fin 2) * 16 + 1 * a.val = a.val; omega

theorem blk1_apply (c : Dev nD) (t : Fin cfg0.N) (r : Fin 12800) (a : Fin 16) :
    blk1 m c t (ix2 r a) = arrXs m c (ix2 (edgeOf t r) a) := by
  obtain ⟨-, -, e0, e1, -⟩ := idx_facts t
  show V m c main_v17 (((cfg0.win 1).blk t).view.emb (ix2 r a)) = V m c main_v17 (ix2 (edgeOf t r) a)
  refine congrArg (V m c main_v17) (funext fun d => Fin.ext ?_)
  match d with
  | ⟨0, _⟩ => show win0_1.index t (0 : Fin 2) * 12800 + 1 * r.val = t.val * 12800 + r.val; omega
  | ⟨1, _⟩ => show win0_1.index t (1 : Fin 2) * 16 + 1 * a.val = a.val; omega

theorem blk2_apply (c : Dev nD) (t : Fin cfg0.N) (r : Fin 12800) (a : Fin 8) :
    blk2 m c t (ix2 r a) = arrEa m c (ix2 (edgeOf t r) a) := by
  obtain ⟨-, -, -, -, e0, e1, -⟩ := idx_facts t
  show V m c main_arg1 (((cfg0.win 2).blk t).view.emb (ix2 r a)) = V m c main_arg1 (ix2 (edgeOf t r) a)
  refine congrArg (V m c main_arg1) (funext fun d => Fin.ext ?_)
  match d with
  | ⟨0, _⟩ => show win0_2.index t (0 : Fin 2) * 12800 + 1 * r.val = t.val * 12800 + r.val; omega
  | ⟨1, _⟩ => show win0_2.index t (1 : Fin 2) * 8 + 1 * a.val = a.val; omega

theorem blk3_eq (c : Dev nD) (t : Fin cfg0.N) : blk3 m c t = arrW1 m c := by
  obtain ⟨-, -, -, -, -, -, e0, e1, -⟩ := idx_facts t
  funext y
  show V m c main_arg2 (((cfg0.win 3).blk t).view.emb y) = V m c main_arg2 y
  refine congrArg (V m c main_arg2) (funext fun d => Fin.ext ?_)
  match d with
  | ⟨0, _⟩ => show win0_3.index t (0 : Fin 2) * 40 + 1 * (y 0).val = (y 0).val; omega
  | ⟨1, _⟩ => show win0_3.index t (1 : Fin 2) * 64 + 1 * (y 1).val = (y 1).val; omega

theorem blk4_eq (c : Dev nD) (t : Fin cfg0.N) : blk4 m c t = arrB1 m c := by
  obtain ⟨-, -, -, -, -, -, -, -, e0, -⟩ := idx_facts t
  funext y
  show V m c main_arg3 (((cfg0.win 4).blk t).view.emb y) = V m c main_arg3 y
  refine congrArg (V m c main_arg3) (funext fun d => Fin.ext ?_)
  match d with
  | ⟨0, _⟩ => show win0_4.index t (0 : Fin 1) * 64 + 1 * (y 0).val = (y 0).val; omega

theorem blk5_eq (c : Dev nD) (t : Fin cfg0.N) : blk5 m c t = arrW2 m c := by
  obtain ⟨-, -, -, -, -, -, -, -, -, e0, e1, -⟩ := idx_facts t
  funext y
  show V m c main_arg4 (((cfg0.win 5).blk t).view.emb y) = V m c main_arg4 y
  refine congrArg (V m c main_arg4) (funext fun d => Fin.ext ?_)
  match d with
  | ⟨0, _⟩ => show win0_5.index t (0 : Fin 2) * 64 + 1 * (y 0).val = (y 0).val; omega
  | ⟨1, _⟩ => show win0_5.index t (1 : Fin 2) * 64 + 1 * (y 1).val = (y 1).val; omega

theorem blk6_eq (c : Dev nD) (t : Fin cfg0.N) : blk6 m c t = arrB2 m c := by
  obtain ⟨-, -, -, -, -, -, -, -, -, -, -, e0, -⟩ := idx_facts t
  funext y
  show V m c main_arg5 (((cfg0.win 6).blk t).view.emb y) = V m c main_arg5 y
  refine congrArg (V m c main_arg5) (funext fun d => Fin.ext ?_)
  match d with
  | ⟨0, _⟩ => show win0_6.index t (0 : Fin 1) * 64 + 1 * (y 0).val = (y 0).val; omega

theorem blk7_eq (c : Dev nD) (t : Fin cfg0.N) : blk7 m c t = arrW3 m c := by
  obtain ⟨-, -, -, -, -, -, -, -, -, -, -, -, e0, e1, -⟩ := idx_facts t
  funext y
  show V m c main_arg6 (((cfg0.win 7).blk t).view.emb y) = V m c main_arg6 y
  refine congrArg (V m c main_arg6) (funext fun d => Fin.ext ?_)
  match d with
  | ⟨0, _⟩ => show win0_7.index t (0 : Fin 2) * 64 + 1 * (y 0).val = (y 0).val; omega
  | ⟨1, _⟩ => show win0_7.index t (1 : Fin 2) * 1 + 1 * (y 1).val = (y 1).val; omega

theorem blk8_eq (c : Dev nD) (t : Fin cfg0.N) : blk8 m c t = arrB3 m c := by
  obtain ⟨-, -, -, -, -, -, -, -, -, -, -, -, -, -, e0, -⟩ := idx_facts t
  funext y
  show V m c main_arg7 (((cfg0.win 8).blk t).view.emb y) = V m c main_arg7 y
  refine congrArg (V m c main_arg7) (funext fun d => Fin.ext ?_)
  match d with
  | ⟨0, _⟩ => show win0_8.index t (0 : Fin 1) * 1 + 1 * (y 0).val = (y 0).val; omega

/-! ## What a point writes back -/

/-- Row r of what the body stores at point t is the message of edge 12800 t + r. -/
theorem tile_msg (c : Dev nD) (t : Fin cfg0.N) (j : S12800x1.Idx) :
    k0_pay1 (F := Ideal) (blk0 m c t) (blk1 m c t) (blk2 m c t) (blk3 m c t) (blk4 m c t) (blk5 m c t) (blk6 m c t)
        (blk7 m c t) (blk8 m c t) j
      = msgArr m c (ix2 (edgeOf t (j 0)) (0 : Fin 1)) := by
  obtain ⟨r, z, rfl⟩ : ∃ (r : Fin 12800) (z : Fin 1), j = ix2 r z := ⟨j 0, j 1, eq_ix2 j⟩
  obtain rfl : z = 0 := Subsingleton.elim _ _
  refine (pay_apply (blk0 m c t) (blk1 m c t) (blk2 m c t) (blk3 m c t) (blk4 m c t) (blk5 m c t) (blk6 m c t)
    (blk7 m c t) (blk8 m c t) r).trans ?_
  show _ = msgAt (catRow (fun a => arrXd m c (ix2 (edgeOf t r) a)) (fun a => arrXs m c (ix2 (edgeOf t r) a))
      (fun a => arrEa m c (ix2 (edgeOf t r) a))) (fun k j => arrW1 m c (ix2 k j)) (fun j => arrB1 m c (ix1 j))
      (fun k j => arrW2 m c (ix2 k j)) (fun j => arrB2 m c (ix1 j)) (fun k j => arrW3 m c (ix2 k j))
      (fun j => arrB3 m c (ix1 j))
  rw [blk3_eq, blk4_eq, blk5_eq, blk6_eq, blk7_eq, blk8_eq]
  simp only [blk0_apply, blk1_apply, blk2_apply]

/-- WHAT POINT t WRITES BACK is block t of the array of all messages. -/
theorem flushed_eq (c : Dev nD) (t : Fin cfg0.N) :
    (dats m 0 c).flushed 9 t = ((cfg0.win 9).blk t).view.read (Elt Ideal) (msgArr m c) := by
  show (cfg0.win 9).cut (grid0.coords t) ((dats m 0 c).after 9 t) = _
  rw [after0_9]
  unfold out0_9
  rw [View.canon_unit_zero hz2]
  simp only [View.ld_unit_zero (S := S12800x16) hz2, View.ld_unit_zero (S := S12800x8) hz2,
    View.ld_unit_zero (S := S40x64) hz2, View.ld_unit_zero (S := S64) hz1, View.ld_unit_zero (S := S64x64) hz2,
    View.ld_unit_zero (S := S64x1) hz2, View.ld_unit_zero (S := S1) hz1]
  obtain ⟨-, -, -, -, -, -, -, -, -, -, -, -, -, -, -, e0, e1⟩ := idx_facts t
  funext j
  refine (tile_msg m c t j).trans ?_
  show msgArr m c (ix2 (edgeOf t (j 0)) (0 : Fin 1)) = msgArr m c (((cfg0.win 9).blk t).view.emb j)
  refine congrArg (msgArr m c) (funext fun d => Fin.ext ?_)
  match d with
  | ⟨0, _⟩ => show t.val * 12800 + (j 0).val = win0_9.index t (0 : Fin 2) * 12800 + 1 * (j 0).val; omega
  | ⟨1, _⟩ =>
    show 0 = win0_9.index t (1 : Fin 2) * 1 + 1 * (j 1).val
    have hj : (j 1).val < 1 := (j 1).isLt
    omega

/-! ## The blocks tile the array -/

theorem mem_blk9 (t : Fin cfg0.N) (i : S1600000x1.Idx) :
    i ∈ ((cfg0.win 9).blk t).view.set ↔ ∀ a : Fin 2, win0_9.index t a * S12800x1.size a ≤ (i a).val
      ∧ (i a).val < win0_9.index t a * S12800x1.size a + S12800x1.size a := by
  show i ∈ ((View.whole main_v18).slice (win0_9.rect t)).set ↔ _
  rw [View.set_slice_whole, Rect.mem_set_unit]
  exact Iff.rfl

/-- Every edge's entry is in the block of the point 12800 divides it into. -/
theorem cover (i : S1600000x1.Idx) :
    ∃ t : Fin cfg0.N, (cfg0.win 9).flush t = true ∧ i ∈ ((cfg0.win 9).blk t).view.set := by
  have hi0 : (i 0).val < 1600000 := (i 0).isLt
  have hi1 : (i 1).val < 1 := (i 1).isLt
  have hN : cfg0.N = 125 := N_0
  have key : ∀ t : Fin cfg0.N, t.val = (i 0).val / 12800 → i ∈ ((cfg0.win 9).blk t).view.set := fun t ht => by
    obtain ⟨-, -, -, -, -, -, -, -, -, -, -, -, -, -, -, e0, e1⟩ := idx_facts t
    rw [mem_blk9]
    intro a
    match a with
    | ⟨0, _⟩ =>
      show win0_9.index t (0 : Fin 2) * 12800 ≤ (i 0).val ∧ (i 0).val < win0_9.index t (0 : Fin 2) * 12800 + 12800
      omega
    | ⟨1, _⟩ =>
      show win0_9.index t (1 : Fin 2) * 1 ≤ (i 1).val ∧ (i 1).val < win0_9.index t (1 : Fin 2) * 1 + 1
      omega
  exact ⟨⟨(i 0).val / 12800, by rw [hN]; omega⟩, flush0_9 _, key _ rfl⟩

/-- THE OUTPUT ARRAY after the region: every edge's message. -/
theorem final (c : Dev nD) : (dats m 0 c).arrAt 9 cfg0.N = msgArr m c :=
  (dats m 0 c).arrAt_eq_of_cover 9 (msgArr m c) (fun t _ => flushed_eq m c t) cover

end Cert.KernelIdeal.Out

end
-- ==== Proof.KernelRun.lean ====
/-
  The kernel program's run, with its result named.

  Before the region the host cuts the edge list into its source row and its target row, wraps negative node indices
  round by the number of nodes, and gathers the node features of every edge's target and source. After the region it
  adds every edge's message into its target node, adds every node's sum into its graph, drops the unit axis and halves.
  The region in between leaves every edge's message in its output array. So the program's result is the pooling of
  the messages of the gathered rows.
-/
import proofs.«174551_j41240275976363_1_alg».proof.Proof.KernelOut
import Idealize.ShloMosaic.Lib.StableHlo.Run

set_option maxRecDepth 16384

noncomputable section

open Idealize.ShloMosaic Idealize.ShloMosaic.TcCoe Idealize.SL.Sem Idealize.ShloMosaic.ValueIdx Idealize.ShloMosaic.StableHlo
open Idealize.ShloMosaic.Pipeline (Dat)

namespace Cert.KernelIdeal.Out

open Cert.KernelIdeal Cert.KernelIdeal.Gen Cert.EdgeSpec

/-- The target node of every edge: row 1 of the edge list. -/
def dstIdx (ei : IVec S2x1600000 32) : IVec S1600000 32 :=
  shapeCast S1600000 (extractStridedSlice S1x1600000 ![1, 0] ei slices_S2x1600000_S1x1600000_1_0) shapeCasts_S1x1600000_S1600000

/-- The source node of every edge: row 0 of the edge list. -/
def srcIdx (ei : IVec S2x1600000 32) : IVec S1600000 32 :=
  shapeCast S1600000 (extractStridedSlice S1x1600000 ![0, 0] ei slices_S2x1600000_S1x1600000_0_0) shapeCasts_S1x1600000_S1600000

/-- The node features of every edge's end `ix`: a negative index counts from the last node. -/
def gathered (x : FVec Ideal S50000x16 .f32) (ix : IVec S1600000 32) : FVec Ideal S1600000x16 .f32 :=
  Host.gather gather_S50000x16_S1600000x1_S1600000x16_1_0_n_n_0_1_116 x
    (broadcastInDim S1600000x1 ![0] bcast_S1600000_S1600000x1_0
      (select (cmpi .slt ix (broadcastInDim S1600000 ![] bcast_S_S1600000 (constantI S_ 32 0#32)))
        (addi ix (broadcastInDim S1600000 ![] bcast_S_S1600000 (constantI S_ 32 50000#32))) ix))

/-- The pooling: every edge's message added into its target node, every node's sum into its graph, halved. -/
def pooled (ei : IVec S2x1600000 32) (batch : IVec S50000 32) (u : FVec Ideal S1600000x1 .f32) : FVec Ideal S500 .f32 :=
  Host.divf (shapeCast S500
      (Host.scatterAdd scatter_S500x1_S50000x1_S50000x1_1_0_0_1
        (broadcastInDim S500x1 ![] bcast_S_S500x1 (constant (F := Ideal) S_ .f32 0x00000000#32))
        (broadcastInDim S50000x1 ![0] bcast_S50000_S50000x1_0 batch)
        (Host.scatterAdd scatter_S50000x1_S1600000x1_S1600000x1_1_0_0_1
          (broadcastInDim S50000x1 ![] bcast_S_S50000x1 (constant (F := Ideal) S_ .f32 0x00000000#32))
          (broadcastInDim S1600000x1 ![0] bcast_S1600000_S1600000x1_0 (dstIdx ei)) u))
      shapeCasts_S500x1_S500)
    (broadcastInDim S500 ![] bcast_S_S500 (constant (F := Ideal) S_ .f32 0x40000000#32))

variable (m : (ℓ : Loc nD τ sig) → Buf (Elt Ideal) ℓ) (ρ : Dev nD → PrngReg)

/-- The program's result as a function of its arguments. -/
def result (c : Dev nD) : FVec Ideal S500 .f32 :=
  pooled (m ((c : Thread nD τ).loc main_arg8)) (m ((c : Thread nD τ).loc main_arg9))
    (edgeMsg (gathered (m ((c : Thread nD τ).loc main_arg0)) (dstIdx (m ((c : Thread nD τ).loc main_arg8))))
      (gathered (m ((c : Thread nD τ).loc main_arg0)) (srcIdx (m ((c : Thread nD τ).loc main_arg8))))
      (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6))
      (m ((c : Thread nD τ).loc main_arg7)))

/-! ## The host operations before the region -/

theorem arrXd_eq (c : Dev nD) :
    arrXd m c = gathered (m ((c : Thread nD τ).loc main_arg0)) (dstIdx (m ((c : Thread nD τ).loc main_arg8))) := by
  show StableHlo.after hostOps0 (fun b => m (c, b)) (Proc.devRef .tc main_v10) = _
  after_results
  rfl

theorem arrXs_eq (c : Dev nD) :
    arrXs m c = gathered (m ((c : Thread nD τ).loc main_arg0)) (srcIdx (m ((c : Thread nD τ).loc main_arg8))) := by
  show StableHlo.after hostOps0 (fun b => m (c, b)) (Proc.devRef .tc main_v17) = _
  after_results
  rfl

theorem dst_eq (c : Dev nD) : (V0 m c (Proc.devRef .tc main_v3) : IVec S1600000 32) = dstIdx (m ((c : Thread nD τ).loc main_arg8)) := by
  show StableHlo.after hostOps0 (fun b => m (c, b)) (Proc.devRef .tc main_v3) = _
  after_results
  rfl

/-- The messages, from the program's arguments. -/
theorem msgArr_eq (c : Dev nD) : msgArr m c =
    edgeMsg (gathered (m ((c : Thread nD τ).loc main_arg0)) (dstIdx (m ((c : Thread nD τ).loc main_arg8))))
      (gathered (m ((c : Thread nD τ).loc main_arg0)) (srcIdx (m ((c : Thread nD τ).loc main_arg8))))
      (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6))
      (m ((c : Thread nD τ).loc main_arg7)) := by
  show edgeMsg (arrXd m c) (arrXs m c) (V m c main_arg1) (V m c main_arg2) (V m c main_arg3) (V m c main_arg4)
    (V m c main_arg5) (V m c main_arg6) (V m c main_arg7) = _
  rw [arrXd_eq, arrXs_eq, V_main_arg1, V_main_arg2, V_main_arg3, V_main_arg4, V_main_arg5, V_main_arg6, V_main_arg7]

/-! ## The host operations after the region -/

theorem tail_eq (c : Dev nD) :
    Pipeline.afterTail₀ cfgs (dats m) 0 (V0 m) [hostOps1] c main_v27 = result m c := by
  unfold Pipeline.afterTail₀
  show StableHlo.after hostOps1 _ (Proc.devRef .tc main_v27) = _
  after_results
  have h18 : Pipeline.withArrays (cfgs 0).spec c (V0 m c) (fun w => (dats m 0 c).arrAt w (cfgs 0).N)
      (Proc.devRef .tc main_v18) = msgArr m c :=
    (Pipeline.withArrays_arr spec0 launch0.win.arr_inj c _ _ 9).trans (final m c)
  have h3 : Pipeline.withArrays (cfgs 0).spec c (V0 m c) (fun w => (dats m 0 c).arrAt w (cfgs 0).N)
      (Proc.devRef .tc main_v3) = dstIdx (m ((c : Thread nD τ).loc main_arg8)) :=
    (Pipeline.withArrays_of_ne _ c (V0 m c) _ main_v3
      (by exact (by decide : ∀ w, Pipeline.arrRef spec0 w ≠ main_v3))).trans (dst_eq m c)
  have h9 : Pipeline.withArrays (cfgs 0).spec c (V0 m c) (fun w => (dats m 0 c).arrAt w (cfgs 0).N)
      (Proc.devRef .tc main_arg9) = m ((c : Thread nD τ).loc main_arg9) :=
    (Pipeline.withArrays_of_ne _ c (V0 m c) _ main_arg9
      (by exact (by decide : ∀ w, Pipeline.arrRef spec0 w ≠ main_arg9))).trans (V_main_arg9 m c)
  rw [h18, h3, h9, msgArr_eq]
  rfl

/-! ## The run -/

/-- Every weakly fair execution of the program ends with its result at the pooling of the messages and its
    arguments as launched: the frame run, with the result read through the host operations after the region. -/
theorem run : θ_run defs (onTc (τ := τ) (main (F := Ideal))) ⟨m, fun _ => 0, ρ⟩ (fun r => ∀ c : Dev nD,
      r.2.mem ((c.tc : Thread nD τ).loc main_v27) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨((h c).2 main_v27 (Pipeline.mem_restRefs_of main_v27 (by decide) (by decide))).trans (tail_eq m c),
      ((h c).2 main_arg0 (Pipeline.mem_restRefs_of main_arg0 (by decide) (by decide))).trans (W_main_arg0 m (dats m) c),
      ((h c).1 2).trans (((dats m 0 c).arrAt_in 2 rfl _).trans ((A_eq m c 2).trans (V_main_arg1 m c))),
      ((h c).1 3).trans (((dats m 0 c).arrAt_in 3 rfl _).trans ((A_eq m c 3).trans (V_main_arg2 m c))),
      ((h c).1 4).trans (((dats m 0 c).arrAt_in 4 rfl _).trans ((A_eq m c 4).trans (V_main_arg3 m c))),
      ((h c).1 5).trans (((dats m 0 c).arrAt_in 5 rfl _).trans ((A_eq m c 5).trans (V_main_arg4 m c))),
      ((h c).1 6).trans (((dats m 0 c).arrAt_in 6 rfl _).trans ((A_eq m c 6).trans (V_main_arg5 m c))),
      ((h c).1 7).trans (((dats m 0 c).arrAt_in 7 rfl _).trans ((A_eq m c 7).trans (V_main_arg6 m c))),
      ((h c).1 8).trans (((dats m 0 c).arrAt_in 8 rfl _).trans ((A_eq m c 8).trans (V_main_arg7 m c))),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c)⟩)
    (run_main m ρ)

end Cert.KernelIdeal.Out

end
-- ==== Proof.RefMsg.lean ====
/-
  The reference's messages.

  The reference joins the two gathered node arrays and the edge-feature array along the columns into one
  1600000 × 40 array and runs the three dense layers on all of its rows at once: a rows-by-columns product, the bias
  vector laid along every row, and, for the first two layers, the maximum with zero. Read at (e, 0) the result is the
  message of edge e.
-/
import proofs.«174551_j41240275976363_1_alg».proof.Proof.Gen.ReferenceIdeal
import proofs.«174551_j41240275976363_1_alg».proof.Proof.EdgeSpec

noncomputable section

namespace Cert.ReferenceIdeal.Msg

open Idealize.ShloMosaic Idealize.ShloMosaic.ValueIdx Cert.ReferenceIdeal Cert.ReferenceIdeal.Gen Cert.LibDense Cert.EdgeSpec

/-- The three products of the reference are rows-by-columns products. -/
theorem d1_plain : dot_S1600000x40_S40x64_S1600000x64_1_0_0_1_n_n = DotDims.plain 1600000 40 64 := rfl
theorem d2_plain : dot_S1600000x64_S64x64_S1600000x64_1_0_0_1_n_n = DotDims.plain 1600000 64 64 := rfl
theorem d3_plain : dot_S1600000x64_S64x1_S1600000x1_1_0_0_1_n_n = DotDims.plain 1600000 64 1 := rfl

/-- The last layer on the host, read at (e, 0): the input's row e against the one weight column, plus the bias. -/
theorem host_last_apply {M : ℕ} (d : DotDims ⟨2, ![M, 64]⟩ ⟨2, ![64, 1]⟩ ⟨2, ![M, 1]⟩) (hd : d = DotDims.plain M 64 1)
    (h : FVec Ideal ⟨2, ![M, 64]⟩ .f32) (W : FVec Ideal ⟨2, ![64, 1]⟩ .f32) (b : FVec Ideal ⟨1, ![1]⟩ .f32)
    (h1 : (⟨1, ![1]⟩ : Shape).BroadcastsInDim ⟨2, ![1, 1]⟩ ![1])
    (h2 : (⟨2, ![1, 1]⟩ : Shape).BroadcastsInDim ⟨2, ![M, 1]⟩ ![0, 1]) (e : Fin M)
    (row : Fin 64 → EReal) (hrow : ∀ k, h (ix2 e k) = row k) :
    addf (Host.dotGeneral d none h W)
        (broadcastInDim ⟨2, ![M, 1]⟩ ![0, 1] h2 (broadcastInDim ⟨2, ![1, 1]⟩ ![1] h1 b)) (ix2 e (0 : Fin 1))
      = ∑ k : Fin 64, row k * W (ix2 k (0 : Fin 1)) + b (ix1 (0 : Fin 1)) := by
  subst hd
  have e2 := broadcastInDim_oneRow_apply h2 (broadcastInDim ⟨2, ![1, 1]⟩ ![1] h1 b) e (0 : Fin 1)
  have e1 := broadcastInDim_apply ![1] h1 b (ix2 (0 : Fin 1) (0 : Fin 1)) (ix1 (0 : Fin 1)) (fun a => by
    match a with
    | ⟨0, _⟩ => rfl)
  show FloatOps.dotGeneral (DotDims.plain M 64 1) none .single h W (ix2 e 0)
      + broadcastInDim ⟨2, ![M, 1]⟩ ![0, 1] h2 (broadcastInDim ⟨2, ![1, 1]⟩ ![1] h1 b) (ix2 e 0) = _
  rw [dotGeneral_plain_apply, e2, e1]
  simp only [hrow]

/-- THE REFERENCE'S MESSAGES: the three layers on the joined array are, edge by edge, the message of the edge's
    feature row. -/
theorem msg_eq (xd xs : FVec Ideal S1600000x16 .f32) (ea : FVec Ideal S1600000x8 .f32) (W1 : FVec Ideal S40x64 .f32)
    (b1 : FVec Ideal S64 .f32) (W2 : FVec Ideal S64x64 .f32) (b2 : FVec Ideal S64 .f32) (W3 : FVec Ideal S64x1 .f32)
    (b3 : FVec Ideal S1 .f32) :
    addf (Host.dotGeneral dot_S1600000x64_S64x1_S1600000x1_1_0_0_1_n_n none
        (maximumf (addf (Host.dotGeneral dot_S1600000x64_S64x64_S1600000x64_1_0_0_1_n_n none
          (maximumf (addf (Host.dotGeneral dot_S1600000x40_S40x64_S1600000x64_1_0_0_1_n_n none
            (concatenate S1600000x40 1 [⟨S1600000x16, xd⟩, ⟨S1600000x16, xs⟩, ⟨S1600000x8, ea⟩]
              concatenates_S1600000x16_S1600000x16_S1600000x8_S1600000x40_d1) W1)
            (broadcastInDim S1600000x64 ![0, 1] bcast_S1x64_S1600000x64_0_1 (broadcastInDim S1x64 ![1] bcast_S64_S1x64_1 b1)))
            (broadcastInDim S1600000x64 ![] bcast_S_S1600000x64 (constant (F := Ideal) S_ .f32 0x00000000#32))) W2)
          (broadcastInDim S1600000x64 ![0, 1] bcast_S1x64_S1600000x64_0_1 (broadcastInDim S1x64 ![1] bcast_S64_S1x64_1 b2)))
          (broadcastInDim S1600000x64 ![] bcast_S_S1600000x64 (constant (F := Ideal) S_ .f32 0x00000000#32))) W3)
      (broadcastInDim S1600000x1 ![0, 1] bcast_S1x1_S1600000x1_0_1 (broadcastInDim S1x1 ![1] bcast_S1_S1x1_1 b3))
    = edgeMsg xd xs ea W1 b1 W2 b2 W3 b3 := by
  funext i
  obtain ⟨e, z, rfl⟩ : ∃ (e : Fin 1600000) (z : Fin 1), i = ix2 e z := ⟨i 0, i 1, eq_ix2 i⟩
  obtain rfl : z = 0 := Subsingleton.elim _ _
  unfold edgeMsg msgAt
  refine (host_last_apply _ d3_plain _ W3 b3 _ _ e _ (fun k => ?_)).trans rfl
  refine (host_layer_apply _ d2_plain none _ W2 b2 _ _ _ e k _ (fun k' => ?_)).trans rfl
  refine (host_layer_apply _ d1_plain none _ W1 b1 _ _ _ e k' _ (fun k'' => ?_)).trans rfl
  exact concat3_apply (M := 1600000) xd xs ea _ e k''

end Cert.ReferenceIdeal.Msg

end
-- ==== Proof.lean ====
/-
  One kernel against its reference: per-edge messages of a graph network, pooled by node and then by graph.

  Both programs gather, for each of 1600000 edges, the 16 features of the edge's target node and of its source node,
  join them with the edge's own 8 features into a row of 40, and send the row through a perceptron 40 → 64 → 64 → 1
  (ReLU after the first two layers); the edges' messages are added into their target nodes, the nodes' sums into
  their graphs, and the result is halved. The reference runs the perceptron on all rows at once on the host. The
  kernel program gathers on the host, runs the perceptron tile by tile (125 tiles of 12800 edges) with its operands
  narrowed to half precision before each product, which is the identity on the extended reals, and pools on the host.

  The proof: the reference's three layers (RefMsg) and the kernel's output array (KernelTile, KernelOut) are both,
  edge by edge, the message `EdgeSpec.msgAt` of the edge's feature row; a product read at an index is a finite sum
  in either program (LibDense); the gathers before and the pooling after are the same operations on the same
  arguments in both programs (KernelRun), so they are never opened. No law beyond reading each operation at an
  index is used, so the inputs' finiteness is not needed for the equality. The frames of the two kernel programs are
  the generated ones; the reference's frame is its generated run. The idealization rewrote nothing.
-/
import proofs.«174551_j41240275976363_1_alg».proof.Defs
import proofs.«174551_j41240275976363_1_alg».proof.Proof.Gen.Kernel
import proofs.«174551_j41240275976363_1_alg».proof.Proof.Gen.Kernel.Skeleton
import proofs.«174551_j41240275976363_1_alg».proof.Proof.Gen.Kernel.Launch
import proofs.«174551_j41240275976363_1_alg».proof.Proof.Gen.Kernel.Points
import proofs.«174551_j41240275976363_1_alg».proof.Proof.Gen.Kernel.Frame
import proofs.«174551_j41240275976363_1_alg».proof.Proof.Gen.KernelIdeal
import proofs.«174551_j41240275976363_1_alg».proof.Proof.Gen.KernelIdeal.Skeleton
import proofs.«174551_j41240275976363_1_alg».proof.Proof.Gen.KernelIdeal.Launch
import proofs.«174551_j41240275976363_1_alg».proof.Proof.Gen.KernelIdeal.Points
import proofs.«174551_j41240275976363_1_alg».proof.Proof.Gen.KernelIdeal.Frame
import proofs.«174551_j41240275976363_1_alg».proof.Proof.Gen.ReferenceIdeal
import proofs.«174551_j41240275976363_1_alg».proof.Proof.Gen.Pre_finite_inputs
import proofs.«174551_j41240275976363_1_alg».proof.Proof.Gen.ReferenceIdeal.Run
import proofs.«174551_j41240275976363_1_alg».proof.Proof.KernelRun
import proofs.«174551_j41240275976363_1_alg».proof.Proof.RefMsg
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference launches no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the arguments both programs end with the pooling of the edges' messages: the kernel
    program by its run, the reference because its three layers are the messages too and the rest of its text is the
    kernel program's host text. -/
theorem algebraic : Cert.algebraic_KernelIdeal_ReferenceIdeal := by
  intro m ρ m' ρ' _ hagree
  refine ⟨fun c => Cert.KernelIdeal.Out.result m c, Cert.KernelIdeal.Out.run m ρ, ?_⟩
  refine (θ_run Cert.ReferenceIdeal.defs _ _).mono (fun _ h c => ⟨(h c).1.trans ?_, (h c).2⟩)
    (Cert.ReferenceIdeal.Value.run (F := Ideal) m' ρ')
  obtain ⟨g0, g1, g2, g3, g4, g5, g6, g7, g8, g9⟩ := hagree c
  rw [g0, g1, g2, g3, g4, g5, g6, g7, g8, g9, Cert.ReferenceIdeal.Msg.msg_eq]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
